-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x512 .f32) (main_arg1 : FVec F S512x256 .f32) (main_arg2 : FVec F S800000 .f32) (main_arg3 : IVec S800000 32) (main_arg4 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x512 : Shape := ⟨2, ![50000, 512]⟩
abbrev S512x256 : Shape := ⟨2, ![512, 256]⟩
abbrev S800000 : Shape := ⟨1, ![800000]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩

abbrev nBuf : Space → Nat
  | .hbm => 25
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S50000x256, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x256, .f32⟩
  | .hbm, ⟨15, _⟩ => ⟨S800000x1, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩

abbrev nBuf : Space → Nat
  | .hbm => 25
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S50000x256, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x256, .f32⟩
  | .hbm, ⟨15, _⟩ => ⟨S800000x1, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.DenseProduct.lean ====
/-
  The dense transform h = X · W as ONE function of the two arrays, and the two ways the programs compute it.

  Over the extended reals the product of an [R, K] array with a [K, C] array is, at (p, q), the sum over k < K of
  l(p, k) · r(k, q).  A host contraction of the two arrays is that sum: it has no accumulator.  The matrix unit's
  product into an all-zero accumulator is that sum too, since 0 + s = s, and narrowing its operands to a shorter float
  format first changes nothing: a change of format is the identity on extended reals.  Both facts are stated for any
  dimension record that contracts the left operand's axis 1 against the right operand's axis 0 with no batch axis, at
  abstract extents, so the same two lemmas serve a product over a block of rows and the product over all rows.
-/
import Idealize.ShloMosaic.PureOps.Ideal.Laws
import Idealize.ShloMosaic.Lib.ValueIdx
import proofs.«140379_j17437567222234_1_alg».proof.Proof.LibPlainDot

noncomputable section

namespace Cert.Dense

open Idealize.ShloMosaic Idealize.ShloMosaic.ValueIdx

variable {R K C : Nat}

/-- The product of an [R, K] array with a [K, C] array over the extended reals: entry (p, q) is the sum over k of
    l(p, k) · r(k, q). -/
def prod (l : (⟨2, ![R, K]⟩ : Shape).Idx → EReal) (r : (⟨2, ![K, C]⟩ : Shape).Idx → EReal) :
    (⟨2, ![R, C]⟩ : Shape).Idx → EReal :=
  fun j => ∑ k : Fin K, l (ix2 (j 0) k) * r (ix2 k (j 1))

/-- A host contraction of the two arrays (left axis 1 against right axis 0, no batch axis) is their product. -/
theorem host_contraction_eq (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision)
    (l : FVec Ideal ⟨2, ![R, K]⟩ .f32) (r : FVec Ideal ⟨2, ![K, C]⟩ .f32) :
    Host.dotGeneral (F := Ideal) d prec l r = prod l r := by
  funext j
  obtain ⟨p, q, rfl⟩ : ∃ (p : Fin R) (q : Fin C), j = ix2 p q := ⟨j 0, j 1, eq_ix2 j⟩
  exact (Ideal.dotGeneral_apply d prec .single l r (ix2 p q)).trans
    (PlainDot.sum_eq d hlb hln hlc hrb hrn hrc l r p q)

/-- The matrix unit's product of the two arrays, each narrowed to a shorter float format first, into an all-zero
    accumulator is their product: the narrowing is the identity and the zero accumulator adds nothing. -/
theorem unit_product_eq (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (hbits : FTy.bits .bf16 < FTy.bits .f32)
    (l : FVec Ideal ⟨2, ![R, K]⟩ .f32) (r : FVec Ideal ⟨2, ![K, C]⟩ .f32) :
    matmul (F := Ideal) d prec (truncf .bf16 l hbits) (truncf .bf16 r hbits)
      (constant ⟨2, ![R, C]⟩ .f32 0x00000000#32) = prod l r := by
  funext j
  obtain ⟨p, q, rfl⟩ : ∃ (p : Fin R) (q : Fin C), j = ix2 p q := ⟨j 0, j 1, eq_ix2 j⟩
  exact (Ideal.matmul_constant_zero_apply d prec (truncf .bf16 l hbits) (truncf .bf16 r hbits) (ix2 p q)).trans
    (PlainDot.sum_eq d hlb hln hlc hrb hrn hrc l r p q)

/-- Two products agree at two result indices as soon as, for every k, the left operands agree at the two rows and the
    right operands agree at the two columns: what lets a product of BLOCKS, read at a coordinate inside the block, be
    the product of the whole arrays read at the block's place in the array. -/
theorem prod_congr {R' : Nat} (l : (⟨2, ![R, K]⟩ : Shape).Idx → EReal) (l' : (⟨2, ![R', K]⟩ : Shape).Idx → EReal)
    (r r' : (⟨2, ![K, C]⟩ : Shape).Idx → EReal) (j : (⟨2, ![R, C]⟩ : Shape).Idx) (j' : (⟨2, ![R', C]⟩ : Shape).Idx)
    (hl : ∀ k : Fin K, l (ix2 (j 0) k) = l' (ix2 (j' 0) k)) (hr : ∀ k : Fin K, r (ix2 k (j 1)) = r' (ix2 k (j' 1))) :
    prod l r j = prod l' r' j' :=
  Finset.sum_congr rfl fun k _ => by rw [hl k, hr k]

end Cert.Dense

end
-- ==== Proof.KernelBlocks.lean ====
/-
  The dense transform h as the kernel's region leaves it.

  The kernel makes h block by block: grid point t (of 25) loads rows 2000·t … 2000·t + 1999 of x and all of W, stores
  their product into its output block, and the block is written back to rows 2000·t … 2000·t + 1999 of h.  A product's
  entry (p, q) reads only row p of the left operand and column q of the right one, so the product of the row block
  with W, read at (p, q) inside the block, is the product x · W read at (2000·t + p, q).  The 25 blocks tile the 50000
  rows — row r lies in block r / 2000 — so after the region h holds x · W everywhere.
-/
import proofs.«140379_j17437567222234_1_alg».proof.Proof.Gen.KernelIdeal.Frame
import proofs.«140379_j17437567222234_1_alg».proof.Proof.DenseProduct
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One grid point -/

/-- Every load and the store of the body start at the origin of their buffers. -/
theorem origin : (![0, 0] : Fin 2 → Nat) = fun _ => 0 := funext fun a => by fin_cases a <;> rfl

/-- The value the body stores is the product of the two blocks it loaded. -/
theorem payload_eq (x0 : Vec Ideal S2000x512 .f32) (x1 : Vec Ideal S512x256 .f32) :
    k0_pay1 (F := Ideal) x0 x1 = Cert.Dense.prod (R := 2000) (K := 512) (C := 256) x0 x1 :=
  Cert.Dense.unit_product_eq dot_S2000x512_S512x256_S2000x256_1_0_0_1_n_n rfl rfl rfl rfl rfl rfl none Facts₀.bitsLt_bf16_f32 x0 x1

/-- The printed index maps, decided over the 25 grid points: x's block and h's block are block t of the rows and
    block 0 of the columns; W's block is always block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product x · W of the arrays as the region finds them. -/
theorem flushed_eq (c : Dev nD) (t : Fin cfg0.N) :
    (dats m 0 c).flushed 2 t = ((cfg0.win 2).blk t).view.read (Elt Ideal)
      (Cert.Dense.prod (R := 50000) (K := 512) (C := 256) (V m c main_arg0) (V m c main_arg1)) := by
  show (cfg0.win 2).cut (grid0.coords t) ((dats m 0 c).after 2 t) = _
  rw [after0_2]
  unfold out0_2
  rw [View.canon_unit_zero origin]
  simp only [View.ld_unit_zero (S := S2000x512) origin, View.ld_unit_zero (S := S512x256) origin]
  rw [payload_eq]
  obtain ⟨e00, e01, e10, e11, e20, e21⟩ := index_facts t
  funext j
  refine Cert.Dense.prod_congr (R := 2000) (R' := 50000) (K := 512) (C := 256) (iblk m c 0 t) (V m c main_arg0) (iblk m c 1 t) (V m c main_arg1)
    j (((cfg0.win 2).blk t).view.emb j) (fun k => ?_) (fun k => ?_)
  · show V m c main_arg0 (((cfg0.win 0).blk t).view.emb (ix2 (j 0) k)) = _
    refine congrArg (V m c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V m c main_arg1 (((cfg0.win 1).blk t).view.emb (ix2 k (j 1))) = _
    refine congrArg (V m c main_arg1) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-! ## The 25 blocks tile h -/

/-- An index of h is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Row r of h lies in the block of point r / 2000, which is written back. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 2000 < cfg0.N := by
    show (i 0).val / 2000 < grid0.N
    rw [N_0]; omega
  obtain ⟨_, _, _, _, e20, e21⟩ := index_facts ⟨(i 0).val / 2000, hN⟩
  have e20' : win0_2.index ⟨(i 0).val / 2000, hN⟩ (0 : Fin 2) = (i 0).val / 2000 := e20
  refine ⟨⟨(i 0).val / 2000, hN⟩, flush0_2 _, ?_⟩
  rw [mem_blk]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    omega
  | ⟨1, _⟩ =>
    show win0_2.index ⟨(i 0).val / 2000, hN⟩ (1 : Fin 2) * 256 ≤ (i 1).val ∧ (i 1).val < win0_2.index ⟨(i 0).val / 2000, hN⟩ (1 : Fin 2) * 256 + 256
    omega

/-- After the region h holds the product x · W of the launch contents. -/
theorem final (c : Dev nD) : (dats m 0 c).arrAt 2 cfg0.N
    = Cert.Dense.prod (R := 50000) (K := 512) (C := 256) (m ((c : Thread nD τ).loc main_arg0)) (m ((c : Thread nD τ).loc main_arg1)) :=
  (dats m 0 c).arrAt_eq_of_cover 2 _ (fun t _ => flushed_eq m c t) cover

end Cert.KernelIdeal.KerValue

end
-- ==== Proof.Aggregate.lean ====
/-
  What both programs do with the dense transform h: the sparse aggregation and the activation, as ONE function.

  For every edge e the message is row src(e) of h — a negative src(e) counted from the end, src(e) + 50000 — scaled by
  vals(e); the messages are added into an all-zero [50000, 256] array at row dst(e); and every entry is then replaced
  by its maximum with zero.  The two programs spell these steps with the same operations on the same literals, and
  differ only in how h itself was made, so nothing here is ever opened: it is enough that both results are this one
  function applied to the same h, vals, src and dst.  The dimension records of the row lookup and of the
  row-wise addition, and the four facts that say which shapes broadcast into which, are parameters: each program
  states its own, with the same fields.
-/
import Idealize.ShloMosaic.PureOps

noncomputable section

namespace Cert.Aggregate

open Idealize.ShloMosaic

variable {F : FTy → Type} [FloatOps F]

/-- The shapes: the node features, one value per edge, that as a column, one message per edge, a scalar. -/
abbrev Nodes : Shape := ⟨2, ![50000, 256]⟩
abbrev Edges : Shape := ⟨1, ![800000]⟩
abbrev EdgeCol : Shape := ⟨2, ![800000, 1]⟩
abbrev Msgs : Shape := ⟨2, ![800000, 256]⟩
abbrev Scal : Shape := ⟨0, ![]⟩

/-- relu (segment_sum (h[src] · vals, dst)): rows of `h` looked up by `src` (negative indices wrapped once), scaled
    edge by edge, added row-wise into zeros at `dst`, then clipped below at zero. -/
def aggregate (g : GatherDims Nodes EdgeCol Msgs) (s : ScatterDims Nodes EdgeCol Msgs)
    (b0 : Scal.BroadcastsInDim Edges (![] : Fin 0 → Fin Edges.rank))
    (b1 : Edges.BroadcastsInDim EdgeCol (![0] : Fin 1 → Fin EdgeCol.rank))
    (b2 : EdgeCol.BroadcastsInDim Msgs (![0, 1] : Fin 2 → Fin Msgs.rank))
    (b3 : Scal.BroadcastsInDim Nodes (![] : Fin 0 → Fin Nodes.rank))
    (h : (⟨Nodes, .f32⟩ : BufTy).Contents (Elt F)) (vals : (⟨Edges, .f32⟩ : BufTy).Contents (Elt F))
    (src dst : (⟨Edges, .i32⟩ : BufTy).Contents (Elt F)) : (⟨Nodes, .f32⟩ : BufTy).Contents (Elt F) :=
  maximumf (Host.scatterAdd s (broadcastInDim Nodes ![] b3 (constant Scal .f32 0x00000000#32)) (broadcastInDim EdgeCol ![0] b1 dst) (mulf (Host.gather g h (broadcastInDim EdgeCol ![0] b1 (select (cmpi .slt src (broadcastInDim Edges ![] b0 (constantI Scal 32 0#32))) (addi src (broadcastInDim Edges ![] b0 (constantI Scal 32 50000#32))) src))) (broadcastInDim Msgs ![0, 1] b2 (broadcastInDim EdgeCol ![0] b1 vals)))) (broadcastInDim Nodes ![] b3 (constant Scal .f32 0x00000000#32))

end Cert.Aggregate

end
-- ==== Proof.KernelTail.lean ====
/-
  The lines that follow the kernel's region, read as one function of what the region leaves.

  After the region the program looks rows of h up by src, scales them by vals, adds them row-wise at dst into zeros
  and takes the maximum with zero: the aggregation.  Its operands are read from the core's buffers as the region leaves
  them: h, the region's output array, holds whatever the 25 write-backs left in it; vals, src and dst are no array of
  the pipeline and hold what the program was launched with.  Everything here is stated for an arbitrary
  interpretation of the float operations, under which the aggregation's steps are opaque and are only ever compared
  step by step, never computed.
-/
import proofs.«140379_j17437567222234_1_alg».proof.Proof.Gen.KernelIdeal.Frame
import proofs.«140379_j17437567222234_1_alg».proof.Proof.Aggregate
import Idealize.ShloMosaic.Lib.StableHlo.Run

set_option maxRecDepth 16384

noncomputable section

namespace Cert.KernelIdeal.KerTail

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The aggregation with the kernel program's own dimension records and broadcast facts. -/
abbrev agg (h : (⟨S50000x256, .f32⟩ : BufTy).Contents (Elt F)) (vals : (⟨S800000, .f32⟩ : BufTy).Contents (Elt F))
    (src dst : (⟨S800000, .i32⟩ : BufTy).Contents (Elt F)) : (⟨S50000x256, .f32⟩ : BufTy).Contents (Elt F) :=
  Cert.Aggregate.aggregate (F := F) gather_S50000x256_S800000x1_S800000x256_1_0_n_n_0_1_1256
    scatter_S50000x256_S800000x1_S800000x256_1_0_0_1 Facts₀.bcast_S_S800000 Facts₀.bcast_S800000_S800000x1_0
    Facts₀.bcast_S800000x1_S800000x256_0_1 Facts₀.bcast_S_S50000x256 h vals src dst

/-- The core's buffers as the region leaves them: the pipeline's arrays at the proof data's final contents, every
    other buffer as launched. -/
abbrev left (c : Dev nD) : Valuation τ sig (Elt F) :=
  Pipeline.withArrays (cfgs 0).spec c (V0 m c) (fun w => (dats m 0 c).arrAt w (cfgs 0).N)

set_option maxHeartbeats 2000000 in
/-- What the result buffer holds after the lines that follow the region, operation by operation. -/
theorem tail_explicit (c : Dev nD) :
    Pipeline.afterTail₀ cfgs (dats m) 0 (V0 m) [hostOps1, hostOps1_1] c main_v14
      = maximumf (Host.scatterAdd scatter_S50000x256_S800000x1_S800000x256_1_0_0_1 (broadcastInDim S50000x256 ![] Facts₀.bcast_S_S50000x256 (constant S_ .f32 0x00000000#32)) (broadcastInDim S800000x1 ![0] Facts₀.bcast_S800000_S800000x1_0 (left m c (Proc.devRef .tc main_arg4))) (mulf (Host.gather gather_S50000x256_S800000x1_S800000x256_1_0_n_n_0_1_1256 (left m c (Proc.devRef .tc main_v0)) (broadcastInDim S800000x1 ![0] Facts₀.bcast_S800000_S800000x1_0 (select (cmpi .slt (left m c (Proc.devRef .tc main_arg3)) (broadcastInDim S800000 ![] Facts₀.bcast_S_S800000 (constantI S_ 32 0#32))) (addi (left m c (Proc.devRef .tc main_arg3)) (broadcastInDim S800000 ![] Facts₀.bcast_S_S800000 (constantI S_ 32 50000#32))) (left m c (Proc.devRef .tc main_arg3))))) (broadcastInDim S800000x256 ![0, 1] Facts₀.bcast_S800000x1_S800000x256_0_1 (broadcastInDim S800000x1 ![0] Facts₀.bcast_S800000_S800000x1_0 (left m c (Proc.devRef .tc main_arg2)))))) (broadcastInDim S50000x256 ![] Facts₀.bcast_S_S50000x256 (constant S_ .f32 0x00000000#32)) := by
  unfold Pipeline.afterTail₀
  simp only [hostOps1, hostOps1_1, List.flatten_cons, List.flatten_nil, List.append_nil, List.cons_append, List.nil_append]
  after_results
  rfl

/-- That is the aggregation of the four buffers as the region leaves them. -/
theorem tail_raw (c : Dev nD) :
    Pipeline.afterTail₀ cfgs (dats m) 0 (V0 m) [hostOps1, hostOps1_1] c main_v14
      = agg (left m c (Proc.devRef .tc main_v0)) (left m c (Proc.devRef .tc main_arg2)) (left m c (Proc.devRef .tc main_arg3))
          (left m c (Proc.devRef .tc main_arg4)) :=
  tail_explicit m c

/-- The region's output array is left at the proof data's final contents. -/
theorem left_h (c : Dev nD) : left m c (Proc.devRef .tc main_v0) = (dats m 0 c).arrAt 2 cfg0.N :=
  Pipeline.withArrays_arr (cfgs 0).spec launch0.win.arr_inj c (V0 m c) (fun w => (dats m 0 c).arrAt w (cfgs 0).N) 2

/-- The edge values, sources and destinations are no array of the pipeline: they are left as launched. -/
theorem left_vals (c : Dev nD) : left m c (Proc.devRef .tc main_arg2) = m ((c : Thread nD τ).loc main_arg2) :=
  Pipeline.withArrays_of_ne (cfgs 0).spec c (V0 m c) _ main_arg2 (by exact (by decide : ∀ w, Pipeline.arrRef spec0 w ≠ main_arg2))
theorem left_src (c : Dev nD) : left m c (Proc.devRef .tc main_arg3) = m ((c : Thread nD τ).loc main_arg3) :=
  Pipeline.withArrays_of_ne (cfgs 0).spec c (V0 m c) _ main_arg3 (by exact (by decide : ∀ w, Pipeline.arrRef spec0 w ≠ main_arg3))
theorem left_dst (c : Dev nD) : left m c (Proc.devRef .tc main_arg4) = m ((c : Thread nD τ).loc main_arg4) :=
  Pipeline.withArrays_of_ne (cfgs 0).spec c (V0 m c) _ main_arg4 (by exact (by decide : ∀ w, Pipeline.arrRef spec0 w ≠ main_arg4))

/-- The result buffer after the whole program: the aggregation of h as the write-backs left it with the launch's
    edge values and index arrays. -/
theorem tail_eq (c : Dev nD) :
    Pipeline.afterTail₀ cfgs (dats m) 0 (V0 m) [hostOps1, hostOps1_1] c main_v14
      = agg ((dats m 0 c).arrAt 2 cfg0.N) (m ((c : Thread nD τ).loc main_arg2)) (m ((c : Thread nD τ).loc main_arg3))
          (m ((c : Thread nD τ).loc main_arg4)) := by
  rw [tail_raw m c, left_h m c, left_vals m c, left_src m c, left_dst m c]

end Cert.KernelIdeal.KerTail

end
-- ==== Proof.KernelValue.lean ====
/-
  The kernel program's result as one function of its arguments.

  After the region h holds x · W (the 25 blocks), and the lines after the region aggregate what the region left, so
  the result is the aggregation of x · W with the launch's edge values and index arrays.
-/
import proofs.«140379_j17437567222234_1_alg».proof.Proof.KernelBlocks
import proofs.«140379_j17437567222234_1_alg».proof.Proof.KernelTail

noncomputable section

namespace Cert.KernelIdeal.KerValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every weakly fair execution of the kernel program terminates with its result at the aggregation of x · W, the
    arguments unchanged: the frame run, with the result buffer read through the lines after the region and h through
    the 25 blocks. -/
theorem run : θ_run (defs (F := Ideal)) (onTc (τ := τ) (main (F := Ideal))) ⟨m, fun _ => 0, ρ⟩ fun r => ∀ c : Dev nD,
      r.2.mem ((c.tc : Thread nD τ).loc main_v14)
          = Cert.KernelIdeal.KerTail.agg (F := Ideal)
              (Cert.Dense.prod (R := 50000) (K := 512) (C := 256) (m ((c.tc : Thread nD τ).loc main_arg0)) (m ((c.tc : Thread nD τ).loc main_arg1)))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v14 (Pipeline.mem_restRefs_of main_v14 (by decide) (by decide))).trans
        ((Cert.KernelIdeal.KerTail.tail_eq m c).trans (by rw [final m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.RefValue.lean ====
/-
  The reference's result as one function of its arguments.

  The reference makes h by ONE host contraction of x [50000, 512] with W [512, 256] (x's axis 1 against W's axis 0),
  which over the extended reals is the product x · W, and then aggregates it.  So its result is the aggregation of the
  product x · W with the edge values and the two index arrays.
-/
import proofs.«140379_j17437567222234_1_alg».proof.Proof.Gen.ReferenceIdeal.Run
import proofs.«140379_j17437567222234_1_alg».proof.Proof.DenseProduct
import proofs.«140379_j17437567222234_1_alg».proof.Proof.Aggregate

noncomputable section

namespace Cert.ReferenceIdeal.RefValue

open Cert.ReferenceIdeal Cert.ReferenceIdeal.Gen Idealize.ShloMosaic Idealize.ShloMosaic.TcCoe Idealize.SL.Sem
/-- The aggregation with the reference's own dimension records and broadcast facts. -/
abbrev agg {F : FTy → Type} [FloatOps F] (h : (⟨S50000x256, .f32⟩ : BufTy).Contents (Elt F)) (vals : (⟨S800000, .f32⟩ : BufTy).Contents (Elt F))
    (src dst : (⟨S800000, .i32⟩ : BufTy).Contents (Elt F)) : (⟨S50000x256, .f32⟩ : BufTy).Contents (Elt F) :=
  Cert.Aggregate.aggregate (F := F) gather_S50000x256_S800000x1_S800000x256_1_0_n_n_0_1_1256
    scatter_S50000x256_S800000x1_S800000x256_1_0_0_1 Facts₀.bcast_S_S800000 Facts₀.bcast_S800000_S800000x1_0
    Facts₀.bcast_S800000x1_S800000x256_0_1 Facts₀.bcast_S_S50000x256 h vals src dst

/-- The reference's contraction of x with W is the product x · W. -/
theorem contraction_eq (x : FVec Ideal S50000x512 .f32) (w : FVec Ideal S512x256 .f32) :
    Host.dotGeneral (F := Ideal) (φ₁ := .f32) (φ₂ := .f32) dot_S50000x512_S512x256_S50000x256_1_0_0_1_n_n none x w = Cert.Dense.prod x w :=
  Cert.Dense.host_contraction_eq dot_S50000x512_S512x256_S50000x256_1_0_0_1_n_n rfl rfl rfl rfl rfl rfl none x w

/-- Every weakly fair execution of the reference terminates with its result at the aggregation of x · W, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = agg (F := Ideal) (Cert.Dense.prod (m ((c.tc : Thread nD τ).loc main_arg0)) (m ((c.tc : Thread nD τ).loc main_arg1)))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      show agg (F := Ideal) (Host.dotGeneral (F := Ideal) (φ₁ := .f32) (φ₂ := .f32) dot_S50000x512_S512x256_S50000x256_1_0_0_1_n_n none
          (m ((c.tc : Thread nD τ).loc main_arg0)) (m ((c.tc : Thread nD τ).loc main_arg1))) _ _ _ = _
      rw [contraction_eq]), (h c).2⟩)
    (Cert.ReferenceIdeal.Value.run (F := Ideal) m ρ)

end Cert.ReferenceIdeal.RefValue

end
-- ==== Proof.lean ====
/-
  A graph-convolution layer: relu (segment_sum (h[src] · vals, dst)) with h = x · W, for x [50000, 512], W [512, 256] and
  800000 edges.

  The two programs differ only in how h is made.  The kernel program makes it in a pallas_call over 25 grid points,
  each multiplying a block of 2000 rows of x with all of W on the matrix unit, the operands narrowed to a shorter
  float format first and the accumulator all zeros; the reference makes it by one host contraction.  Over the extended
  reals a change of float format is the identity and a zero accumulator adds nothing, so each block is the
  corresponding 2000 rows of the product x · W (an entry of a product reads one row of the left operand and one column
  of the right one), the 25 blocks tile the 50000 rows, and h is x · W in both programs: entry (p, q) the sum over
  k < 512 of x(p, k) · W(k, q), as one finite sum whose order and grouping do not matter.  What follows h — the row
  lookup by src, the scaling by vals, the row-wise addition at dst into zeros, the maximum with zero — is spelt with
  the same operations on the same literals in both programs, so it is one function applied to the same h and is never
  opened.  No law used here needs the inputs to be finite, so the precondition is never opened either.

  The frames: the kernel program's two frames are the generated ones (the body loads and stores through whole-buffer
  rectangles); the reference has no kernel, and its frame is its run with the result dropped.  The idealization
  rewrote no operation, so there is nothing to preserve.
-/
import proofs.«140379_j17437567222234_1_alg».proof.Defs
import proofs.«140379_j17437567222234_1_alg».proof.Proof.Gen.Kernel
import proofs.«140379_j17437567222234_1_alg».proof.Proof.Gen.Kernel.Skeleton
import proofs.«140379_j17437567222234_1_alg».proof.Proof.Gen.Kernel.Launch
import proofs.«140379_j17437567222234_1_alg».proof.Proof.Gen.Kernel.Points
import proofs.«140379_j17437567222234_1_alg».proof.Proof.Gen.Kernel.Frame
import proofs.«140379_j17437567222234_1_alg».proof.Proof.Gen.KernelIdeal
import proofs.«140379_j17437567222234_1_alg».proof.Proof.Gen.KernelIdeal.Skeleton
import proofs.«140379_j17437567222234_1_alg».proof.Proof.Gen.KernelIdeal.Launch
import proofs.«140379_j17437567222234_1_alg».proof.Proof.Gen.KernelIdeal.Points
import proofs.«140379_j17437567222234_1_alg».proof.Proof.Gen.KernelIdeal.Frame
import proofs.«140379_j17437567222234_1_alg».proof.Proof.Gen.ReferenceIdeal
import proofs.«140379_j17437567222234_1_alg».proof.Proof.Gen.ReferenceIdeal.Run
import proofs.«140379_j17437567222234_1_alg».proof.Proof.Gen.Pre_finite_inputs
import proofs.«140379_j17437567222234_1_alg».proof.Proof.KernelValue
import proofs.«140379_j17437567222234_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two programs' aggregations are one function: each program states its own dimension records for the row lookup
    and the row-wise addition, and its own broadcast facts, and the records have the same fields.  For an arbitrary
    interpretation of the float operations, so that the two sides are compared step by step and nothing is computed. -/
theorem agg_eq {F : FTy → Type} [FloatOps F] (h : (⟨Cert.Aggregate.Nodes, .f32⟩ : BufTy).Contents (Elt F))
    (vals : (⟨Cert.Aggregate.Edges, .f32⟩ : BufTy).Contents (Elt F)) (src dst : (⟨Cert.Aggregate.Edges, .i32⟩ : BufTy).Contents (Elt F)) :
    Cert.ReferenceIdeal.RefValue.agg (F := F) h vals src dst = Cert.KernelIdeal.KerTail.agg (F := F) h vals src dst := rfl

/-- From memories that agree on the five arguments both programs end with the aggregation of x · W: the kernel program
    through its 25 blocks, the reference through its one contraction. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4⟩ := hagree c
  rw [h0, h1, h2, h3, h4]
  exact agg_eq _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
